-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000x128x11 : Shape := ⟨3, ![4000, 128, 11]⟩
abbrev S128 : Shape := ⟨1, ![128]⟩
abbrev S_ : Shape := ⟨0, ![]⟩

class Facts : Prop where
  bcast_S_S4000x128x11 : S_.BroadcastsInDim S4000x128x11 (![] : Fin 0 → Fin S4000x128x11.rank)
  reducesTo_S4000x128x11_S_d0_1_2 : S4000x128x11.ReducesTo [0, 1, 2] S_
  h_S_ : 0 < S_.numel
  bcast_S_S128 : S_.BroadcastsInDim S128 (![] : Fin 0 → Fin S128.rank)
  reducesTo_S128_S_d0 : S128.ReducesTo [0] S_

variable [Facts]

def fn_part1 {F : FTy → Type} [FloatOps F] (main_arg2 : IVec S128 32) (main_arg3 : IVec S128 32) (main_arg4 : IVec S128 32) (main_v13 : IVec S_ 1) (main_v15 : IVec S128 1) (main_c_5 : IVec S_ 32) : IVec S_ 1 :=
  let main_v16 : IVec S128 32 := broadcastInDim S128 ![] bcast_S_S128 main_c_5
  let main_v17 : IVec S128 1 := cmpi .slt main_arg2 main_v16
  let main_v18 : IVec S128 1 := andi main_v15 main_v17
  let main_c_6 : IVec S_ 1 := constantI S_ 1 1#1
  let main_v19 : IVec S_ 1 := (fun x v => Host.reduce IntOp.andi x v reducesTo_S128_S_d0 h_S_) main_v18 main_c_6
  let main_v20 : IVec S_ 1 := andi main_v13 main_v19
  let main_c_7 : IVec S_ 32 := constantI S_ 32 0#32
  let main_v21 : IVec S128 32 := broadcastInDim S128 ![] bcast_S_S128 main_c_7
  let main_v22 : IVec S128 1 := cmpi .sge main_arg3 main_v21
  let main_c_8 : IVec S_ 32 := constantI S_ 32 11#32
  let main_v23 : IVec S128 32 := broadcastInDim S128 ![] bcast_S_S128 main_c_8
  let main_v24 : IVec S128 1 := cmpi .slt main_arg3 main_v23
  let main_v25 : IVec S128 1 := andi main_v22 main_v24
  let main_c_9 : IVec S_ 1 := constantI S_ 1 1#1
  let main_v26 : IVec S_ 1 := (fun x v => Host.reduce IntOp.andi x v reducesTo_S128_S_d0 h_S_) main_v25 main_c_9
  let main_v27 : IVec S_ 1 := andi main_v20 main_v26
  let main_c_10 : IVec S_ 32 := constantI S_ 32 0#32
  let main_v28 : IVec S128 32 := broadcastInDim S128 ![] bcast_S_S128 main_c_10
  let main_v29 : IVec S128 1 := cmpi .sge main_arg4 main_v28
  let main_c_11 : IVec S_ 1 := constantI S_ 1 1#1
  let main_v30 : IVec S_ 1 := (fun x v => Host.reduce IntOp.andi x v reducesTo_S128_S_d0 h_S_) main_v29 main_c_11
  let main_v31 : IVec S_ 1 := andi main_v27 main_v30
  main_v31

def fn {F : FTy → Type} [FloatOps F] (main_arg0 : FVec F S4000x128x11 .f32) (main_arg1 : FVec F S4000x128x11 .f32) (main_arg2 : IVec S128 32) (main_arg3 : IVec S128 32) (main_arg4 : IVec S128 32) (main_arg5 : FVec F S128 .f32) : IVec S_ 1 :=
  let main_v0 : FVec F S4000x128x11 .f32 := Host.absf main_arg0
  let main_cst : FVec F S_ .f32 := constant S_ .f32 0x7F800000#32
  let main_v1 : FVec F S4000x128x11 .f32 := broadcastInDim S4000x128x11 ![] bcast_S_S4000x128x11 main_cst
  let main_v2 : IVec S4000x128x11 1 := cmpf .olt main_v0 main_v1
  let main_c : IVec S_ 1 := constantI S_ 1 1#1
  let main_v3 : IVec S_ 1 := (fun x v => Host.reduce IntOp.andi x v reducesTo_S4000x128x11_S_d0_1_2 h_S_) main_v2 main_c
  let main_v4 : FVec F S4000x128x11 .f32 := Host.absf main_arg1
  let main_cst_0 : FVec F S_ .f32 := constant S_ .f32 0x7F800000#32
  let main_v5 : FVec F S4000x128x11 .f32 := broadcastInDim S4000x128x11 ![] bcast_S_S4000x128x11 main_cst_0
  let main_v6 : IVec S4000x128x11 1 := cmpf .olt main_v4 main_v5
  let main_c_1 : IVec S_ 1 := constantI S_ 1 1#1
  let main_v7 : IVec S_ 1 := (fun x v => Host.reduce IntOp.andi x v reducesTo_S4000x128x11_S_d0_1_2 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_c_4 : IVec S_ 32 := constantI S_ 32 0#32
  let main_v14 : IVec S128 32 := broadcastInDim S128 ![] bcast_S_S128 main_c_4
  let main_v15 : IVec S128 1 := cmpi .sge main_arg2 main_v14
  let main_c_5 : IVec S_ 32 := constantI S_ 32 11#32
  fn_part1 (F := F) main_arg2 main_arg3 main_arg4 main_v13 main_v15 main_c_5
-- ==== Kernel.lean ====
abbrev S4000x128x11 : Shape := ⟨3, ![4000, 128, 11]⟩
abbrev S128 : Shape := ⟨1, ![128]⟩
abbrev S11 : Shape := ⟨1, ![11]⟩
abbrev S11x1 : Shape := ⟨2, ![11, 1]⟩
abbrev S1x128 : Shape := ⟨2, ![1, 128]⟩
abbrev S11x128 : Shape := ⟨2, ![11, 128]⟩
abbrev S128x1 : Shape := ⟨2, ![128, 1]⟩
abbrev S1x11 : Shape := ⟨2, ![1, 11]⟩
abbrev S128x11 : Shape := ⟨2, ![128, 11]⟩
abbrev S100x128x11 : Shape := ⟨3, ![100, 128, 11]⟩
abbrev S12800x11 : Shape := ⟨2, ![12800, 11]⟩
abbrev S12800x128 : Shape := ⟨2, ![12800, 128]⟩

abbrev nBuf : Space → Nat
  | .hbm => 31
  | .vmem => 9
  | .smem => 0
  | _ => 0

abbrev bufTy : (tb : Table) → Fin (tcTables nBuf tb) → BufTy
  | .hbm, ⟨0, _⟩ => ⟨S4000x128x11, .f32⟩
  | .hbm, ⟨1, _⟩ => ⟨S4000x128x11, .f32⟩
  | .hbm, ⟨2, _⟩ => ⟨S128, .i32⟩
  | .hbm, ⟨3, _⟩ => ⟨S128, .i32⟩
  | .hbm, ⟨4, _⟩ => ⟨S128, .i32⟩
  | .hbm, ⟨5, _⟩ => ⟨S128, .f32⟩
  | .hbm, ⟨6, _⟩ => ⟨S11, .i32⟩
  | .hbm, ⟨7, _⟩ => ⟨S11, .i32⟩
  | .hbm, ⟨8, _⟩ => ⟨S11, .i32⟩
  | .hbm, ⟨9, _⟩ => ⟨S11x1, .i32⟩
  | .hbm, ⟨10, _⟩ => ⟨S1x128, .i32⟩
  | .hbm, ⟨11, _⟩ => ⟨S11x128, .i32⟩
  | .hbm, ⟨12, _⟩ => ⟨S11x128, .i32⟩
  | .hbm, ⟨13, _⟩ => ⟨S11x128, .i1⟩
  | .hbm, ⟨14, _⟩ => ⟨S11x128, .f32⟩
  | .hbm, ⟨15, _⟩ => ⟨S11x1, .i32⟩
  | .hbm, ⟨16, _⟩ => ⟨S1x128, .i32⟩
  | .hbm, ⟨17, _⟩ => ⟨S11x128, .i32⟩
  | .hbm, ⟨18, _⟩ => ⟨S11x128, .i32⟩
  | .hbm, ⟨19, _⟩ => ⟨S11x128, .i1⟩
  | .hbm, ⟨20, _⟩ => ⟨S11x128, .f32⟩
  | .hbm, ⟨21, _⟩ => ⟨S128x1, .i32⟩
  | .hbm, ⟨22, _⟩ => ⟨S1x11, .i32⟩
  | .hbm, ⟨23, _⟩ => ⟨S128x11, .i32⟩
  | .hbm, ⟨24, _⟩ => ⟨S128x11, .i32⟩
  | .hbm, ⟨25, _⟩ => ⟨S128x11, .i1⟩
  | .hbm, ⟨26, _⟩ => ⟨S128x11, .f32⟩
  | .hbm, ⟨27, _⟩ => ⟨S128x1, .f32⟩
  | .hbm, ⟨28, _⟩ => ⟨S128x11, .f32⟩
  | .hbm, ⟨29, _⟩ => ⟨S128x11, .f32⟩
  | .hbm, ⟨30, _⟩ => ⟨S4000x128x11, .f32⟩
  | .local _ .vmem, ⟨0, _⟩ => ⟨S100x128x11, .f32⟩
  | .local _ .vmem, ⟨1, _⟩ => ⟨S100x128x11, .f32⟩
  | .local _ .vmem, ⟨2, _⟩ => ⟨S100x128x11, .f32⟩
  | .local _ .vmem, ⟨3, _⟩ => ⟨S100x128x11, .f32⟩
  | .local _ .vmem, ⟨4, _⟩ => ⟨S11x128, .f32⟩
  | .local _ .vmem, ⟨5, _⟩ => ⟨S11x128, .f32⟩
  | .local _ .vmem, ⟨6, _⟩ => ⟨S128x11, .f32⟩
  | .local _ .vmem, ⟨7, _⟩ => ⟨S100x128x11, .f32⟩
  | .local _ .vmem, ⟨8, _⟩ => ⟨S100x128x11, .f32⟩
  | _, _ => ⟨S4000x128x11, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![40], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S100x128x11 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S100x128x11 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S11x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S11x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x11 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S100x128x11 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S11_S11x1_0 : S11.BroadcastsInDim S11x1 (![0] : Fin 1 → Fin S11x1.rank)
  bcast_S128_S1x128_1 : S128.BroadcastsInDim S1x128 (![1] : Fin 1 → Fin S1x128.rank)
  bcast_S11x1_S11x128_0_1 : S11x1.BroadcastsInDim S11x128 (![0, 1] : Fin 2 → Fin S11x128.rank)
  bcast_S1x128_S11x128_0_1 : S1x128.BroadcastsInDim S11x128 (![0, 1] : Fin 2 → Fin S11x128.rank)
  bcast_S128_S128x1_0 : S128.BroadcastsInDim S128x1 (![0] : Fin 1 → Fin S128x1.rank)
  bcast_S11_S1x11_1 : S11.BroadcastsInDim S1x11 (![1] : Fin 1 → Fin S1x11.rank)
  bcast_S128x1_S128x11_0_1 : S128x1.BroadcastsInDim S128x11 (![0, 1] : Fin 2 → Fin S128x11.rank)
  bcast_S1x11_S128x11_0_1 : S1x11.BroadcastsInDim S128x11 (![0, 1] : Fin 2 → Fin S128x11.rank)
  inb_S100x128x11_S100x128x11_0_0_0 : ∀ a, (![0, 0, 0] : Fin 3 → Nat) a + S100x128x11.size a ≤ S100x128x11.size a
  h_S100x128x11 : 0 < S100x128x11.numel
  shapeCasts_S100x128x11_S12800x11 : S100x128x11.ShapeCasts S12800x11
  inb_S11x128_S11x128_0_0 : ∀ a, (![0, 0] : Fin 2 → Nat) a + S11x128.size a ≤ S11x128.size a
  h_S11x128 : 0 < S11x128.numel
  shapeCasts_S11x128_S11x128 : S11x128.ShapeCasts S11x128
  inb_S128x11_S128x11_0_0 : ∀ a, (![0, 0] : Fin 2 → Nat) a + S128x11.size a ≤ S128x11.size a
  h_S128x11 : 0 < S128x11.numel
  shapeCasts_S128x11_S128x11 : S128x11.ShapeCasts S128x11
  shapeCasts_S12800x11_S100x128x11 : S12800x11.ShapeCasts S100x128x11
  dot_S12800x11_S11x128_S12800x128_1_0_0_1_n_n_wf : DotDims.WF S12800x11 S11x128 S12800x128 [1] [0] [0] [1] [] []
  dot_S12800x128_S128x11_S12800x11_1_0_0_1_n_n_wf : DotDims.WF S12800x128 S128x11 S12800x11 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S100x128x11.size a ≤ S4000x128x11.size a
  hwx0_0 : ∀ i : grid0.Coords, EltTy.bits .f32 = 32 ∨ (Rect.block (s := S4000x128x11) S100x128x11.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S100x128x11.size a ≤ S4000x128x11.size a
  hwx0_1 : ∀ i : grid0.Coords, EltTy.bits .f32 = 32 ∨ (Rect.block (s := S4000x128x11) S100x128x11.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S11x128.size a ≤ S11x128.size a
  hwx0_2 : ∀ i : grid0.Coords, EltTy.bits .f32 = 32 ∨ (Rect.block (s := S11x128) S11x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S11x128.size a ≤ S11x128.size a
  hwx0_3 : ∀ i : grid0.Coords, EltTy.bits .f32 = 32 ∨ (Rect.block (s := S11x128) S11x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x11.size a ≤ S128x11.size a
  hwx0_4 : ∀ i : grid0.Coords, EltTy.bits .f32 = 32 ∨ (Rect.block (s := S128x11) S128x11.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S100x128x11.size a ≤ S4000x128x11.size a
  hwx0_5 : ∀ i : grid0.Coords, EltTy.bits .f32 = 32 ∨ (Rect.block (s := S4000x128x11) S100x128x11.size (cc0_transform_5 i) (hinb0_5 i)).WholeWords (EltTy.packing .f32)

variable [Facts₀]

def dot_S12800x11_S11x128_S12800x128_1_0_0_1_n_n : DotDims S12800x11 S11x128 S12800x128 where
  lhsContracting := [1]
  rhsContracting := [0]
  lhsNonContracting := [0]
  rhsNonContracting := [1]
  lhsBatch := []
  rhsBatch := []
  wf := dot_S12800x11_S11x128_S12800x128_1_0_0_1_n_n_wf
def dot_S12800x128_S128x11_S12800x11_1_0_0_1_n_n : DotDims S12800x128 S128x11 S12800x11 where
  lhsContracting := [1]
  rhsContracting := [0]
  lhsNonContracting := [0]
  rhsNonContracting := [1]
  lhsBatch := []
  rhsBatch := []
  wf := dot_S12800x128_S128x11_S12800x11_1_0_0_1_n_n_wf

abbrev win0_0 : Pipeline.Window sig grid0 :=
  Pipeline.Window.ofSpec (Memref.whole main_arg0) S100x128x11.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S100x128x11.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S11x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S11x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S128x11.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S100x128x11.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4000x128x11 : Shape := ⟨3, ![4000, 128, 11]⟩
abbrev S128 : Shape := ⟨1, ![128]⟩
abbrev S_ : Shape := ⟨0, ![]⟩
abbrev S128x1 : Shape := ⟨2, ![128, 1]⟩
abbrev S4000x128x128 : Shape := ⟨3, ![4000, 128, 128]⟩
abbrev S1x1x128 : Shape := ⟨3, ![1, 1, 128]⟩

abbrev nBuf : Space → Nat
  | .hbm => 39
  | .vmem => 0
  | .smem => 0
  | _ => 0

abbrev bufTy : (tb : Table) → Fin (tcTables nBuf tb) → BufTy
  | .hbm, ⟨0, _⟩ => ⟨S4000x128x11, .f32⟩
  | .hbm, ⟨1, _⟩ => ⟨S4000x128x11, .f32⟩
  | .hbm, ⟨2, _⟩ => ⟨S128, .i32⟩
  | .hbm, ⟨3, _⟩ => ⟨S128, .i32⟩
  | .hbm, ⟨4, _⟩ => ⟨S128, .i32⟩
  | .hbm, ⟨5, _⟩ => ⟨S128, .f32⟩
  | .hbm, ⟨6, _⟩ => ⟨S_, .i32⟩
  | .hbm, ⟨7, _⟩ => ⟨S128, .i32⟩
  | .hbm, ⟨8, _⟩ => ⟨S128, .i1⟩
  | .hbm, ⟨9, _⟩ => ⟨S_, .i32⟩
  | .hbm, ⟨10, _⟩ => ⟨S128, .i32⟩
  | .hbm, ⟨11, _⟩ => ⟨S128, .i32⟩
  | .hbm, ⟨12, _⟩ => ⟨S128, .i32⟩
  | .hbm, ⟨13, _⟩ => ⟨S128x1, .i32⟩
  | .hbm, ⟨14, _⟩ => ⟨S4000x128x128, .f32⟩
  | .hbm, ⟨15, _⟩ => ⟨S_, .i32⟩
  | .hbm, ⟨16, _⟩ => ⟨S128, .i32⟩
  | .hbm, ⟨17, _⟩ => ⟨S128, .i1⟩
  | .hbm, ⟨18, _⟩ => ⟨S_, .i32⟩
  | .hbm, ⟨19, _⟩ => ⟨S128, .i32⟩
  | .hbm, ⟨20, _⟩ => ⟨S128, .i32⟩
  | .hbm, ⟨21, _⟩ => ⟨S128, .i32⟩
  | .hbm, ⟨22, _⟩ => ⟨S128x1, .i32⟩
  | .hbm, ⟨23, _⟩ => ⟨S4000x128x128, .f32⟩
  | .hbm, ⟨24, _⟩ => ⟨S4000x128x128, .f32⟩
  | .hbm, ⟨25, _⟩ => ⟨S1x1x128, .f32⟩
  | .hbm, ⟨26, _⟩ => ⟨S4000x128x128, .f32⟩
  | .hbm, ⟨27, _⟩ => ⟨S4000x128x128, .f32⟩
  | .hbm, ⟨28, _⟩ => ⟨S_, .f32⟩
  | .hbm, ⟨29, _⟩ => ⟨S4000x128x11, .f32⟩
  | .hbm, ⟨30, _⟩ => ⟨S_, .i32⟩
  | .hbm, ⟨31, _⟩ => ⟨S128, .i32⟩
  | .hbm, ⟨32, _⟩ => ⟨S128, .i1⟩
  | .hbm, ⟨33, _⟩ => ⟨S_, .i32⟩
  | .hbm, ⟨34, _⟩ => ⟨S128, .i32⟩
  | .hbm, ⟨35, _⟩ => ⟨S128, .i32⟩
  | .hbm, ⟨36, _⟩ => ⟨S128, .i32⟩
  | .hbm, ⟨37, _⟩ => ⟨S128x1, .i32⟩
  | .hbm, ⟨38, _⟩ => ⟨S4000x128x11, .f32⟩
  | _, _ => ⟨S4000x128x11, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]

class Facts₀ : Prop where
  bcast_S_S128 : S_.BroadcastsInDim S128 (![] : Fin 0 → Fin S128.rank)
  bcast_S128_S128x1_0 : S128.BroadcastsInDim S128x1 (![0] : Fin 1 → Fin S128x1.rank)
  bcast_S128_S1x1x128_2 : S128.BroadcastsInDim S1x1x128 (![2] : Fin 1 → Fin S1x1x128.rank)
  bcast_S1x1x128_S4000x128x128_0_1_2 : S1x1x128.BroadcastsInDim S4000x128x128 (![0, 1, 2] : Fin 3 → Fin S4000x128x128.rank)
  bcast_S_S4000x128x11 : S_.BroadcastsInDim S4000x128x11 (![] : Fin 0 → Fin S4000x128x11.rank)
  gather_S4000x128x11_S128x1_S4000x128x128_01_2_n_n_2_1_40001281_wf : GatherDims.WF S4000x128x11 S128x1 S4000x128x128 [0, 1] [2] [] [2] [] 1 ![4000, 128, 1]
  scatter_S4000x128x11_S128x1_S4000x128x128_01_2_2_1_wf : ScatterDims.WF S4000x128x11 S128x1 S4000x128x128 [0, 1] [2] [2] 1

variable [Facts₀]

def gather_S4000x128x11_S128x1_S4000x128x128_01_2_n_n_2_1_40001281 : GatherDims S4000x128x11 S128x1 S4000x128x128 where
  offsetDims := [0, 1]
  collapsedSliceDims := [2]
  operandBatchingDims := []
  startIndicesBatchingDims := []
  startIndexMap := [2]
  indexVectorDim := 1
  sliceSizes := ![4000, 128, 1]
  wf := gather_S4000x128x11_S128x1_S4000x128x128_01_2_n_n_2_1_40001281_wf
def scatter_S4000x128x11_S128x1_S4000x128x128_01_2_2_1 : ScatterDims S4000x128x11 S128x1 S4000x128x128 where
  updateWindowDims := [0, 1]
  insertedWindowDims := [2]
  scatterDimsToOperandDims := [2]
  indexVectorDim := 1
  wf := scatter_S4000x128x11_S128x1_S4000x128x128_01_2_2_1_wf

class Facts : Prop extends Facts₀ where

variable [Facts]
-- ==== Proof.Spec.lean ====
/-
  The Clebsch–Gordan coupling as one function of the argument arrays.

  For an environment b, a channel f and an output component j,
      out[b, f, j] = Σ_n  X1[b, f, m1 n] · X2[b, f, m2 n] · C n   over the entries n with mu n = j.
  Written with weights instead of a selection it is
      G[b, f, j] = Σ_n (Σ_a X1[b, f, a] · hot a (m1 n)) · (Σ_a X2[b, f, a] · hot a (m2 n)) · (hot j (mu n) · C n),
  where hot a w is 1 when the table word w is the coordinate a and 0 otherwise. Over the extended reals a product
  with 0 is 0 and a product with 1 is the other factor, so for a word in range the inner sum has one surviving
  term (`sum_hot`): no finiteness of X1, X2 or C is used anywhere.
-/
import Idealize.ShloMosaic.PureOps.Ideal
import Idealize.ShloMosaic.Lib.ValueIdx

noncomputable section

open scoped BigOperators

namespace Cert.Spec

open Idealize.ShloMosaic Idealize.ShloMosaic.ValueIdx

/-- The shape of X1, X2 and the result: environments × channels × components. -/
abbrev SX : Shape := ⟨3, ![4000, 128, 11]⟩
/-- The shape of the four tables m1, m2, mu, C: one entry per nonzero coupling coefficient. -/
abbrev SN : Shape := ⟨1, ![128]⟩

/-- The weight of the table word `w` at the coordinate `a`: 1 when `w` is `a`, else 0. -/
def hot (a : ℕ) (w : BitVec 32) : EReal := if BitVec.ofNat 32 a = w then 1 else 0

/-- The coupled product at environment `b`, channel `f`, component `j`. -/
def g (X1 X2 : SX.Idx → EReal) (m1 m2 mu : SN.Idx → BitVec 32) (C : SN.Idx → EReal)
    (b : Fin 4000) (f : Fin 128) (j : Fin 11) : EReal :=
  ∑ n : Fin 128,
    ((∑ a : Fin 11, X1 (ix3 b f a) * hot a.val (m1 (ix1 n))) *
     (∑ a : Fin 11, X2 (ix3 b f a) * hot a.val (m2 (ix1 n)))) *
    (hot j.val (mu (ix1 n)) * C (ix1 n))

/-- The result array as one function of the six argument arrays. -/
def G (X1 X2 : SX.Idx → EReal) (m1 m2 mu : SN.Idx → BitVec 32) (C : SN.Idx → EReal) : SX.Idx → EReal :=
  fun i => g X1 X2 m1 m2 mu C (i 0) (i 1) (i 2)

/-- The tables index inside the arrays they index: m1 and m2 a component 0 … 10 of X1 and X2, and mu is
    not negative (an entry with mu n ≥ 11 contributes to no component, on either side). -/
def InRange (m1 m2 mu : SN.Idx → BitVec 32) : Prop :=
  (∀ n : Fin 128, 0 ≤ (m1 (ix1 n)).toInt ∧ (m1 (ix1 n)).toInt < 11) ∧
  (∀ n : Fin 128, 0 ≤ (m2 (ix1 n)).toInt ∧ (m2 (ix1 n)).toInt < 11) ∧
  (∀ n : Fin 128, 0 ≤ (mu (ix1 n)).toInt)

/-- A word that is not negative as a signed integer is its unsigned value. -/
theorem toInt_eq_toNat_of_nonneg (w : BitVec 32) (h0 : 0 ≤ w.toInt) : w.toInt = (w.toNat : ℤ) := by
  have hlt := w.isLt
  rw [BitVec.toInt_eq_toNat_cond] at h0 ⊢
  split_ifs at h0 ⊢ with h
  · rfl
  · omega

/-- The weight in terms of the word's signed value, for a word that is not negative. -/
theorem hot_eq_of_nonneg (a : ℕ) (ha : a < 2 ^ 31) (w : BitVec 32) (h0 : 0 ≤ w.toInt) :
    hot a w = if a = w.toInt.toNat then 1 else 0 := by
  have hw := toInt_eq_toNat_of_nonneg w h0
  unfold hot
  have hiff : BitVec.ofNat 32 a = w ↔ a = w.toInt.toNat := by
    rw [hw, Int.toNat_natCast]
    constructor
    · intro h
      have := congrArg BitVec.toNat h
      rw [BitVec.toNat_ofNat] at this
      omega
    · intro h
      apply BitVec.eq_of_toNat_eq
      rw [BitVec.toNat_ofNat]
      omega
  by_cases h : a = w.toInt.toNat
  · rw [if_pos (hiff.2 h), if_pos h]
  · rw [if_neg (fun h' => h (hiff.1 h')), if_neg h]

/-- THE ONE-HOT SUM: for a word in 0 … 10, the weighted sum over the eleven components is the component the
    word names. -/
theorem sum_hot (x : Fin 11 → EReal) (w : BitVec 32) (h0 : 0 ≤ w.toInt) (h1 : w.toInt < 11) :
    ∑ a : Fin 11, x a * hot a.val w = x ⟨w.toInt.toNat, by omega⟩ := by
  rw [Finset.sum_eq_single (⟨w.toInt.toNat, by omega⟩ : Fin 11)]
  · rw [hot_eq_of_nonneg _ (by omega) w h0, if_pos rfl, mul_one]
  · intro a _ hne
    rw [hot_eq_of_nonneg _ (by have := a.isLt; omega) w h0, if_neg (fun h => hne (Fin.ext h)), mul_zero]
  · intro h; exact absurd (Finset.mem_univ _) h

end Cert.Spec

end
-- ==== Proof.PreRanges.lean ====
/-
  What the precondition says about the three index tables.

  The precondition is a conjunction of six all-reductions: three say the float inputs are finite, and three say
  0 ≤ m1 n < 11, 0 ≤ m2 n < 11 and 0 ≤ mu n for every entry n. Only the last three are read here.
-/
import proofs.«404499_j56624848830594_1_alg».proof.Pre_finite_inputs
import proofs.«404499_j56624848830594_1_alg».proof.Proof.Gen.Pre_finite_inputs
import proofs.«404499_j56624848830594_1_alg».proof.Proof.Spec
import Idealize.ShloMosaic.Lib.ValueIdx
import Idealize.ShloMosaic.Lib.ReduceAll
import Idealize.ShloMosaic.Lib.StableHlo.Predicate

noncomputable section

namespace Cert.Pre_finite_inputs.Ranges

open Cert.Pre_finite_inputs Cert.Pre_finite_inputs.Gen Idealize.ShloMosaic Idealize.ShloMosaic.ValueIdx

variable {F : FTy → Type} [FloatOps F]

/-- A shape of rank 0 has exactly one index. -/
local instance : Subsingleton S_.Idx := ⟨fun a b => funext fun d => d.elim0⟩

/-- The words 0 and 11 read as signed integers. -/
private theorem toInt_zero : (0#32 : BitVec 32).toInt = 0 := by decide
private theorem toInt_eleven : (11#32 : BitVec 32).toInt = 11 := by decide

/-- One entry of a table word by word: the comparison with the constant 0 broadcast over the table, read at the
    entry n, is the comparison of the word x n with 0, and the signed comparison that comes out 1 says 0 ≤ x n. -/
private theorem nonneg_of_mask (x : IVec S128 32) (hb : S_.BroadcastsInDim S128 (![] : Fin 0 → Fin S128.rank))
    (n : Fin 128) (e : cmpi .sge x (broadcastInDim S128 ![] hb (constantI S_ 32 0#32)) (ix1 n) = 1#1) :
    0 ≤ (x (ix1 n)).toInt := by
  have e' : IntOp.cmpi .sge (x (ix1 n)) 0#32 = 1#1 := e
  rw [IntOp.cmpi_sge, toInt_zero] at e'
  exact e'

/-- The same for the comparison with the constant 11: the mask bit 1 says x n < 11. -/
private theorem lt_of_mask (x : IVec S128 32) (hb : S_.BroadcastsInDim S128 (![] : Fin 0 → Fin S128.rank))
    (n : Fin 128) (e : cmpi .slt x (broadcastInDim S128 ![] hb (constantI S_ 32 11#32)) (ix1 n) = 1#1) :
    (x (ix1 n)).toInt < 11 := by
  have e' : IntOp.cmpi .slt (x (ix1 n)) 11#32 = 1#1 := e
  rw [IntOp.cmpi_slt, toInt_eleven] at e'
  exact e'

/-- THE TABLES ARE IN RANGE wherever the precondition holds. -/
theorem inRange_of_pre (x0 x1 : FVec F S4000x128x11 .f32) (x2 x3 x4 : IVec S128 32) (x5 : FVec F S128 .f32)
    (h : Cert.Pre_finite_inputs.fn (F := F) x0 x1 x2 x3 x4 x5 = fun _ => 1#1) :
    Cert.Spec.InRange x2 x3 x4 := by
  -- the precondition is one bit; written out it is the conjunction of six all-reductions
  have h0 := congrFun h ValueIdx.ix0
  dsimp only [Cert.Pre_finite_inputs.fn, Cert.Pre_finite_inputs.fn_part1] at h0
  -- a conjunction of bits is 1 only where both are: the last three conjuncts are the ones about the tables
  obtain ⟨h0, hmu⟩ := IntOp.andi_eq_one.1 h0
  obtain ⟨h0, hm2⟩ := IntOp.andi_eq_one.1 h0
  obtain ⟨-, hm1⟩ := IntOp.andi_eq_one.1 h0
  refine ⟨fun n => ?_, fun n => ?_, fun n => ?_⟩
  · -- an all-reduction that is 1 had a 1 at every entry; the entry's bit is the conjunction of the two comparisons
    obtain ⟨e0, e1⟩ := IntOp.andi_eq_one.1 (Host.reduce_andi_all _ _ _ _ _ hm1 (ix1 n))
    exact ⟨nonneg_of_mask x2 _ n e0, lt_of_mask x2 _ n e1⟩
  · obtain ⟨e0, e1⟩ := IntOp.andi_eq_one.1 (Host.reduce_andi_all _ _ _ _ _ hm2 (ix1 n))
    exact ⟨nonneg_of_mask x3 _ n e0, lt_of_mask x3 _ n e1⟩
  · exact nonneg_of_mask x4 _ n (Host.reduce_andi_all _ _ _ _ _ hmu (ix1 n))

end Cert.Pre_finite_inputs.Ranges

end
-- ==== Proof.HostWindows.lean ====
/-
  The three small arrays the host builds before the region, read at an index.

  Before the one region the program compares an iota with each table, entry by entry, and widens the bit to a float:
      sel1[a, n] = 1 if a = m1 n else 0        (11 × 128)
      sel2[a, n] = 1 if a = m2 n else 0        (11 × 128)
      acc[n, j]  = (1 if mu n = j else 0) · C n  (128 × 11)
  These are the weights `Cert.Spec.hot` of the specification.
-/
import proofs.«404499_j56624848830594_1_alg».proof.Proof.Gen.KernelIdeal.Frame
import proofs.«404499_j56624848830594_1_alg».proof.Proof.Spec
import Idealize.ShloMosaic.Lib.ValueIdx
import Idealize.ShloMosaic.Lib.StableHlo.Run
import Idealize.ShloMosaic.Lib.StableHlo.Predicate

noncomputable section

namespace Cert.KernelIdeal.HostWindows

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## The widened comparison -/

/-- A one-bit word widened to a float, at the ideal arithmetic: the bit 1 is the number 1. -/
theorem uitofp_one : FloatOps.uitofp (F := Ideal) .f32 (1#1 : BitVec 1) = (1 : EReal) := by
  show (((1#1 : BitVec 1).toNat : ℝ) : EReal) = 1
  have h : (1#1 : BitVec 1).toNat = 1 := rfl
  rw [h, Nat.cast_one, EReal.coe_one]

/-- The bit 0 is the number 0. -/
theorem uitofp_zero : FloatOps.uitofp (F := Ideal) .f32 (0#1 : BitVec 1) = (0 : EReal) := by
  show (((0#1 : BitVec 1).toNat : ℝ) : EReal) = 0
  have h : (0#1 : BitVec 1).toNat = 0 := rfl
  rw [h, Nat.cast_zero, EReal.coe_zero]

/-- The widened comparison of two words is 1 when they are equal and 0 otherwise. -/
theorem uitofp_cmpi_eq (u v : BitVec 32) :
    FloatOps.uitofp (F := Ideal) .f32 (IntOp.cmpi .eq u v) = if u = v then (1 : EReal) else 0 := by
  by_cases h : u = v
  · rw [if_pos h, StableHlo.Predicate.cmpi_eq_iff.2 h]; exact uitofp_one
  · rw [if_neg h, eq_zero_of_ne_one (fun h' => h (StableHlo.Predicate.cmpi_eq_iff.1 h'))]; exact uitofp_zero

/-! ## The two array expressions read at an index, over any table -/

open Idealize.ShloMosaic.StableHlo.Predicate in
/-- The selector over a table `x`: the iota is constant along each row, the table down each column, so the entry
    (a, n) compares the word `a` with `x n`. -/
theorem sel_read (x : S128.Idx → BitVec 32) (a : Fin 11) (n : Fin 128) :
    (uitofp (F := Ideal) .f32 (cmpi .eq
        (broadcastInDim S11x128 ![0, 1] bcast_S11x1_S11x128_0_1
          (broadcastInDim S11x1 ![0] bcast_S11_S11x1_0 (iotaInDim S11 32 0)))
        (broadcastInDim S11x128 ![0, 1] bcast_S1x128_S11x128_0_1
          (broadcastInDim S1x128 ![1] bcast_S128_S1x128_1 x))) : S11x128.Idx → EReal) (ix2 a n)
      = Cert.Spec.hot a.val (x (ix1 n)) := by
  have h1 : broadcastInDim S11x128 ![0, 1] bcast_S11x1_S11x128_0_1
          (broadcastInDim S11x1 ![0] bcast_S11_S11x1_0 (iotaInDim S11 32 0)) (ix2 a n) = BitVec.ofNat 32 a.val :=
    (bcast_rows bcast_S11_S11x1_0 bcast_S11x1_S11x128_0_1 (iotaInDim S11 32 0) a n).trans (iota_apply a)
  have h2 : broadcastInDim S11x128 ![0, 1] bcast_S1x128_S11x128_0_1
          (broadcastInDim S1x128 ![1] bcast_S128_S1x128_1 x) (ix2 a n) = x (ix1 n) :=
    (bcast_cols bcast_S128_S1x128_1 bcast_S1x128_S11x128_0_1 x a n).trans
      (congrArg x (Shape.Idx.eq_ofFin (ix1 n)).symm)
  show FloatOps.uitofp (F := Ideal) .f32 (IntOp.cmpi .eq _ _) = _
  rw [h1, h2, uitofp_cmpi_eq]
  rfl

open Idealize.ShloMosaic.StableHlo.Predicate in
/-- The accumulation matrix over a table `x` and coefficients `y`: the table and the coefficients are constant along
    each row, the iota down each column, so the entry (n, j) compares `x n` with the word `j` and multiplies by `y n`. -/
theorem acc_read (x : S128.Idx → BitVec 32) (y : S128.Idx → EReal) (n : Fin 128) (j : Fin 11) :
    (mulf (F := Ideal)
      (uitofp (F := Ideal) .f32 (cmpi .eq
        (broadcastInDim S128x11 ![0, 1] bcast_S128x1_S128x11_0_1
          (broadcastInDim S128x1 ![0] bcast_S128_S128x1_0 x))
        (broadcastInDim S128x11 ![0, 1] bcast_S1x11_S128x11_0_1
          (broadcastInDim S1x11 ![1] bcast_S11_S1x11_1 (iotaInDim S11 32 0)))))
      (broadcastInDim S128x11 ![0, 1] bcast_S128x1_S128x11_0_1
        (broadcastInDim S128x1 ![0] bcast_S128_S128x1_0 y)) : S128x11.Idx → EReal) (ix2 n j)
      = Cert.Spec.hot j.val (x (ix1 n)) * y (ix1 n) := by
  have h1 : broadcastInDim S128x11 ![0, 1] bcast_S128x1_S128x11_0_1
          (broadcastInDim S128x1 ![0] bcast_S128_S128x1_0 x) (ix2 n j) = x (ix1 n) :=
    (bcast_rows bcast_S128_S128x1_0 bcast_S128x1_S128x11_0_1 x n j).trans
      (congrArg x (Shape.Idx.eq_ofFin (ix1 n)).symm)
  have h2 : broadcastInDim S128x11 ![0, 1] bcast_S1x11_S128x11_0_1
          (broadcastInDim S1x11 ![1] bcast_S11_S1x11_1 (iotaInDim S11 32 0)) (ix2 n j) = BitVec.ofNat 32 j.val :=
    (bcast_cols bcast_S11_S1x11_1 bcast_S1x11_S128x11_0_1 (iotaInDim S11 32 0) n j).trans (iota_apply j)
  have h3 : broadcastInDim S128x11 ![0, 1] bcast_S128x1_S128x11_0_1
          (broadcastInDim S128x1 ![0] bcast_S128_S128x1_0 y) (ix2 n j) = y (ix1 n) :=
    (bcast_rows bcast_S128_S128x1_0 bcast_S128x1_S128x11_0_1 y n j).trans
      (congrArg y (Shape.Idx.eq_ofFin (ix1 n)).symm)
  show FloatOps.mulf (F := Ideal) (FloatOps.uitofp (F := Ideal) .f32 (IntOp.cmpi .eq _ _)) _ = _
  rw [h1, h2, h3, uitofp_cmpi_eq]
  show (if x (ix1 n) = BitVec.ofNat 32 j.val then (1 : EReal) else 0) * y (ix1 n)
    = (if BitVec.ofNat 32 j.val = x (ix1 n) then (1 : EReal) else 0) * y (ix1 n)
  by_cases h : BitVec.ofNat 32 j.val = x (ix1 n)
  · rw [if_pos h, if_pos h.symm]
  · rw [if_neg h, if_neg (fun h' => h h'.symm)]

/-! ## The three arrays as the region finds them -/

/-- The first selector, as the region finds it: the weight of m1's entry `n` at component `a`. -/
theorem sel1_apply (c : Dev nD) (a : Fin 11) (n : Fin 128) :
    (V m c main_v8 : S11x128.Idx → EReal) (ix2 a n)
      = Cert.Spec.hot a.val ((m ((c : Thread nD τ).loc main_arg2) : S128.Idx → BitVec 32) (ix1 n)) := by
  have e : (V m c main_v8 : S11x128.Idx → EReal) = uitofp (F := Ideal) .f32 (cmpi .eq
        (broadcastInDim S11x128 ![0, 1] bcast_S11x1_S11x128_0_1
          (broadcastInDim S11x1 ![0] bcast_S11_S11x1_0 (iotaInDim S11 32 0)))
        (broadcastInDim S11x128 ![0, 1] bcast_S1x128_S11x128_0_1
          (broadcastInDim S1x128 ![1] bcast_S128_S1x128_1
            (m ((c : Thread nD τ).loc main_arg2) : S128.Idx → BitVec 32)))) := by
    dsimp only [Gen.V, Gen.hostOps0]
    after_results
  rw [e]
  exact sel_read _ a n

/-- The second selector: the weight of m2's entry `n` at component `a`. -/
theorem sel2_apply (c : Dev nD) (a : Fin 11) (n : Fin 128) :
    (V m c main_v14 : S11x128.Idx → EReal) (ix2 a n)
      = Cert.Spec.hot a.val ((m ((c : Thread nD τ).loc main_arg3) : S128.Idx → BitVec 32) (ix1 n)) := by
  have e : (V m c main_v14 : S11x128.Idx → EReal) = uitofp (F := Ideal) .f32 (cmpi .eq
        (broadcastInDim S11x128 ![0, 1] bcast_S11x1_S11x128_0_1
          (broadcastInDim S11x1 ![0] bcast_S11_S11x1_0 (iotaInDim S11 32 0)))
        (broadcastInDim S11x128 ![0, 1] bcast_S1x128_S11x128_0_1
          (broadcastInDim S1x128 ![1] bcast_S128_S1x128_1
            (m ((c : Thread nD τ).loc main_arg3) : S128.Idx → BitVec 32)))) := by
    dsimp only [Gen.V, Gen.hostOps0]
    after_results
  rw [e]
  exact sel_read _ a n

/-- The accumulation matrix: the weight of mu's entry `n` at output component `j`, times the coefficient C n. -/
theorem acc_apply (c : Dev nD) (n : Fin 128) (j : Fin 11) :
    (V m c main_v23 : S128x11.Idx → EReal) (ix2 n j)
      = Cert.Spec.hot j.val ((m ((c : Thread nD τ).loc main_arg4) : S128.Idx → BitVec 32) (ix1 n))
        * (m ((c : Thread nD τ).loc main_arg5) : S128.Idx → EReal) (ix1 n) := by
  have e : (V m c main_v23 : S128x11.Idx → EReal) = mulf (F := Ideal)
      (uitofp (F := Ideal) .f32 (cmpi .eq
        (broadcastInDim S128x11 ![0, 1] bcast_S128x1_S128x11_0_1
          (broadcastInDim S128x1 ![0] bcast_S128_S128x1_0
            (m ((c : Thread nD τ).loc main_arg4) : S128.Idx → BitVec 32)))
        (broadcastInDim S128x11 ![0, 1] bcast_S1x11_S128x11_0_1
          (broadcastInDim S1x11 ![1] bcast_S11_S1x11_1 (iotaInDim S11 32 0)))))
      (broadcastInDim S128x11 ![0, 1] bcast_S128x1_S128x11_0_1
        (broadcastInDim S128x1 ![0] bcast_S128_S128x1_0
          (m ((c : Thread nD τ).loc main_arg5) : S128.Idx → EReal))) := by
    dsimp only [Gen.V, Gen.hostOps0]
    after_results
  rw [e]
  exact acc_read _ _ n j

end Cert.KernelIdeal.HostWindows

end
-- ==== Proof.KernelValue.lean ====
/-
  The kernel's result array is the specification.

  One grid point t stages rows 100·t … 100·t+99 of X1 and X2 and the three small arrays whole. Its body flattens the
  block to 12800 rows (row 128·p + q is environment p, channel q), contracts the 11 components against each selector
  (12800 × 128), multiplies the two entry by entry, contracts the 128 entries against the accumulation matrix
  (12800 × 11) and unflattens. Read at (p, q, r) that is
      Σ_n (Σ_a x1[p, q, a] · sel1[a, n]) · (Σ_a x2[p, q, a] · sel2[a, n]) · acc[n, r],
  which with the selectors read as weights is the specification at environment 100·t + p. The forty blocks tile the
  array, so the array ends at the specification everywhere.
-/
import proofs.«404499_j56624848830594_1_alg».proof.Proof.Gen.KernelIdeal.Value
import proofs.«404499_j56624848830594_1_alg».proof.Proof.Spec
import proofs.«404499_j56624848830594_1_alg».proof.Proof.HostWindows
import Idealize.ShloMosaic.Lib.ValueIdx
import Idealize.ShloMosaic.Lib.Pipeline.Value
import Idealize.ShloMosaic.PureOps.Ideal.Laws

noncomputable section

open scoped BigOperators

namespace Cert.KernelIdeal.Coupling

open Cert.KernelIdeal Cert.KernelIdeal.Gen Idealize.ShloMosaic Idealize.ShloMosaic.TcCoe Idealize.SL.Sem
open Idealize.ShloMosaic.ValueIdx
open Idealize.ShloMosaic.Pipeline (Dat)

/-! ## The two flattenings -/

/-- Row 128·p + q of the flattened block is environment p, channel q. -/
theorem flatten_apply (x : S100x128x11.Idx → EReal) (p : Fin 100) (q : Fin 128) (a : Fin 11) :
    shapeCast S12800x11 x shapeCasts_S100x128x11_S12800x11 (ix2 ⟨p.val * 128 + q.val, by omega⟩ a) = x (ix3 p q a) := by
  refine shapeCast_apply x _ _ _ ?_
  rw [Shape.rowMajor_val_three, Shape.rowMajor_val_two]
  rfl

/-- And back: entry (p, q, r) of the unflattened result is row 128·p + q, column r. -/
theorem unflatten_apply (y : S12800x11.Idx → EReal) (p : Fin 100) (q : Fin 128) (r : Fin 11) :
    shapeCast S100x128x11 y shapeCasts_S12800x11_S100x128x11 (ix3 p q r) = y (ix2 ⟨p.val * 128 + q.val, by omega⟩ r) := by
  refine shapeCast_apply y _ _ _ ?_
  rw [Shape.rowMajor_val_three, Shape.rowMajor_val_two]
  rfl

/-! ## The two contractions, read at an index -/

/-- The contraction of the 11 components: rows × components against components × entries. -/
abbrev dotA : DotDims S12800x11 S11x128 S12800x128 := dot_S12800x11_S11x128_S12800x128_1_0_0_1_n_n
/-- The contraction of the 128 entries: rows × entries against entries × components. -/
abbrev dotB : DotDims S12800x128 S128x11 S12800x11 := dot_S12800x128_S128x11_S12800x11_1_0_0_1_n_n

theorem lhs_dotA_0 (i : S12800x128.Idx) (k : dot_S12800x11_S11x128_S12800x128_1_0_0_1_n_n.contr.Idx) :
    (dot_S12800x11_S11x128_S12800x128_1_0_0_1_n_n.lhsIdx i k 0).val = (i 0).val := by
  unfold DotDims.lhsIdx
  rw [dif_neg (show ¬(0 : Fin S12800x11.rank) ∈ dot_S12800x11_S11x128_S12800x128_1_0_0_1_n_n.lhsBatch by decide),
    dif_pos (show (0 : Fin S12800x11.rank) ∈ dot_S12800x11_S11x128_S12800x128_1_0_0_1_n_n.lhsNonContracting by decide)]
  rfl
theorem lhs_dotA_1 (i : S12800x128.Idx) (k : dot_S12800x11_S11x128_S12800x128_1_0_0_1_n_n.contr.Idx) :
    (dot_S12800x11_S11x128_S12800x128_1_0_0_1_n_n.lhsIdx i k 1).val = (k ⟨0, by decide⟩).val :=
  dot_S12800x11_S11x128_S12800x128_1_0_0_1_n_n.lhsIdx_val_of_single rfl i k
theorem rhs_dotA_0 (i : S12800x128.Idx) (k : dot_S12800x11_S11x128_S12800x128_1_0_0_1_n_n.contr.Idx) :
    (dot_S12800x11_S11x128_S12800x128_1_0_0_1_n_n.rhsIdx i k 0).val = (k ⟨0, by decide⟩).val :=
  dot_S12800x11_S11x128_S12800x128_1_0_0_1_n_n.rhsIdx_val_of_single rfl i k
theorem rhs_dotA_1 (i : S12800x128.Idx) (k : dot_S12800x11_S11x128_S12800x128_1_0_0_1_n_n.contr.Idx) :
    (dot_S12800x11_S11x128_S12800x128_1_0_0_1_n_n.rhsIdx i k 1).val = (i 1).val := by
  unfold DotDims.rhsIdx
  rw [dif_neg (show ¬(1 : Fin S11x128.rank) ∈ dot_S12800x11_S11x128_S12800x128_1_0_0_1_n_n.rhsBatch by decide),
    dif_pos (show (1 : Fin S11x128.rank) ∈ dot_S12800x11_S11x128_S12800x128_1_0_0_1_n_n.rhsNonContracting by decide)]
  rfl

/-- A row of the flattened block against a selector: the sum over the 11 components. -/
theorem dotA_apply (l : FVec Ideal S12800x11 .f32) (r : FVec Ideal S11x128 .f32) (row : Fin 12800) (n : Fin 128) :
    matmul dot_S12800x11_S11x128_S12800x128_1_0_0_1_n_n (some .fp32) l r (constant S12800x128 .f32 0x00000000#32) (ix2 row n)
      = ∑ a : Fin 11, l (ix2 row a) * r (ix2 a n) := by
  unfold matmul
  rw [Ideal.matmul_constant_zero_apply, ← Equiv.sum_comp (contrEquiv1 dot_S12800x11_S11x128_S12800x128_1_0_0_1_n_n 11 rfl rfl).symm]
  refine Finset.sum_congr rfl fun a _ => ?_
  have hk := contrEquiv1_symm_val dot_S12800x11_S11x128_S12800x128_1_0_0_1_n_n 11 rfl rfl a
  have el : dot_S12800x11_S11x128_S12800x128_1_0_0_1_n_n.lhsIdx (ix2 row n) ((contrEquiv1 dot_S12800x11_S11x128_S12800x128_1_0_0_1_n_n 11 rfl rfl).symm a) = ix2 row a :=
    funext fun d => Fin.ext (by
      match d with
      | ⟨0, _⟩ => exact lhs_dotA_0 _ _
      | ⟨1, _⟩ => exact (lhs_dotA_1 _ _).trans hk)
  have er : dot_S12800x11_S11x128_S12800x128_1_0_0_1_n_n.rhsIdx (ix2 row n) ((contrEquiv1 dot_S12800x11_S11x128_S12800x128_1_0_0_1_n_n 11 rfl rfl).symm a) = ix2 a n :=
    funext fun d => Fin.ext (by
      match d with
      | ⟨0, _⟩ => exact (rhs_dotA_0 _ _).trans hk
      | ⟨1, _⟩ => exact rhs_dotA_1 _ _)
  rw [el, er]

theorem lhs_dotB_0 (i : S12800x11.Idx) (k : dot_S12800x128_S128x11_S12800x11_1_0_0_1_n_n.contr.Idx) :
    (dot_S12800x128_S128x11_S12800x11_1_0_0_1_n_n.lhsIdx i k 0).val = (i 0).val := by
  unfold DotDims.lhsIdx
  rw [dif_neg (show ¬(0 : Fin S12800x128.rank) ∈ dot_S12800x128_S128x11_S12800x11_1_0_0_1_n_n.lhsBatch by decide),
    dif_pos (show (0 : Fin S12800x128.rank) ∈ dot_S12800x128_S128x11_S12800x11_1_0_0_1_n_n.lhsNonContracting by decide)]
  rfl
theorem lhs_dotB_1 (i : S12800x11.Idx) (k : dot_S12800x128_S128x11_S12800x11_1_0_0_1_n_n.contr.Idx) :
    (dot_S12800x128_S128x11_S12800x11_1_0_0_1_n_n.lhsIdx i k 1).val = (k ⟨0, by decide⟩).val :=
  dot_S12800x128_S128x11_S12800x11_1_0_0_1_n_n.lhsIdx_val_of_single rfl i k
theorem rhs_dotB_0 (i : S12800x11.Idx) (k : dot_S12800x128_S128x11_S12800x11_1_0_0_1_n_n.contr.Idx) :
    (dot_S12800x128_S128x11_S12800x11_1_0_0_1_n_n.rhsIdx i k 0).val = (k ⟨0, by decide⟩).val :=
  dot_S12800x128_S128x11_S12800x11_1_0_0_1_n_n.rhsIdx_val_of_single rfl i k
theorem rhs_dotB_1 (i : S12800x11.Idx) (k : dot_S12800x128_S128x11_S12800x11_1_0_0_1_n_n.contr.Idx) :
    (dot_S12800x128_S128x11_S12800x11_1_0_0_1_n_n.rhsIdx i k 1).val = (i 1).val := by
  unfold DotDims.rhsIdx
  rw [dif_neg (show ¬(1 : Fin S128x11.rank) ∈ dot_S12800x128_S128x11_S12800x11_1_0_0_1_n_n.rhsBatch by decide),
    dif_pos (show (1 : Fin S128x11.rank) ∈ dot_S12800x128_S128x11_S12800x11_1_0_0_1_n_n.rhsNonContracting by decide)]
  rfl

/-- A row of the products against the accumulation matrix: the sum over the 128 entries. -/
theorem dotB_apply (l : FVec Ideal S12800x128 .f32) (r : FVec Ideal S128x11 .f32) (row : Fin 12800) (j : Fin 11) :
    matmul dot_S12800x128_S128x11_S12800x11_1_0_0_1_n_n (some .fp32) l r (constant S12800x11 .f32 0x00000000#32) (ix2 row j)
      = ∑ n : Fin 128, l (ix2 row n) * r (ix2 n j) := by
  unfold matmul
  rw [Ideal.matmul_constant_zero_apply, ← Equiv.sum_comp (contrEquiv1 dot_S12800x128_S128x11_S12800x11_1_0_0_1_n_n 128 rfl rfl).symm]
  refine Finset.sum_congr rfl fun n _ => ?_
  have hk := contrEquiv1_symm_val dot_S12800x128_S128x11_S12800x11_1_0_0_1_n_n 128 rfl rfl n
  have el : dot_S12800x128_S128x11_S12800x11_1_0_0_1_n_n.lhsIdx (ix2 row j) ((contrEquiv1 dot_S12800x128_S128x11_S12800x11_1_0_0_1_n_n 128 rfl rfl).symm n) = ix2 row n :=
    funext fun d => Fin.ext (by
      match d with
      | ⟨0, _⟩ => exact lhs_dotB_0 _ _
      | ⟨1, _⟩ => exact (lhs_dotB_1 _ _).trans hk)
  have er : dot_S12800x128_S128x11_S12800x11_1_0_0_1_n_n.rhsIdx (ix2 row j) ((contrEquiv1 dot_S12800x128_S128x11_S12800x11_1_0_0_1_n_n 128 rfl rfl).symm n) = ix2 n j :=
    funext fun d => Fin.ext (by
      match d with
      | ⟨0, _⟩ => exact (rhs_dotB_0 _ _).trans hk
      | ⟨1, _⟩ => exact rhs_dotB_1 _ _)
  rw [el, er]

/-! ## The body's payload at an index -/

/-- THE BODY AT (p, q, r): over the 128 entries, the product of the two selected components and the
    accumulation weight. -/
theorem payload_apply (x1 x2 : Vec Ideal S100x128x11 .f32) (s1 s2 : Vec Ideal S11x128 .f32) (acc : Vec Ideal S128x11 .f32)
    (p : Fin 100) (q : Fin 128) (r : Fin 11) :
    k0_pay1 x1 x2 s1 s2 acc (ix3 p q r)
      = ∑ n : Fin 128, ((∑ a : Fin 11, x1 (ix3 p q a) * s1 (ix2 a n)) * (∑ a : Fin 11, x2 (ix3 p q a) * s2 (ix2 a n))) * acc (ix2 n r) := by
  unfold k0_pay1
  rw [unflatten_apply, dotB_apply]
  refine Finset.sum_congr rfl fun n _ => ?_
  rw [mulf_apply, dotA_apply, dotA_apply, shapeCast_self, shapeCast_self, shapeCast_self]
  simp only [flatten_apply]

/-- THE BODY IS THE SPECIFICATION AT ONE ENVIRONMENT: if the staged X1 and X2 rows are those of environment b and the
    three small blocks are the weights of the tables, the body's entry (p, q, r) is the coupled product at (b, q, r). -/
theorem payload_spec (x1 x2 : Vec Ideal S100x128x11 .f32) (s1 s2 : Vec Ideal S11x128 .f32) (acc : Vec Ideal S128x11 .f32)
    (X1 X2 : Cert.Spec.SX.Idx → EReal) (m1 m2 mu : Cert.Spec.SN.Idx → BitVec 32) (C : Cert.Spec.SN.Idx → EReal)
    (b : Fin 4000) (p : Fin 100) (q : Fin 128) (r : Fin 11)
    (h1 : ∀ a : Fin 11, x1 (ix3 p q a) = X1 (ix3 b q a)) (h2 : ∀ a : Fin 11, x2 (ix3 p q a) = X2 (ix3 b q a))
    (hs1 : ∀ (a : Fin 11) (n : Fin 128), s1 (ix2 a n) = Cert.Spec.hot a.val (m1 (ix1 n)))
    (hs2 : ∀ (a : Fin 11) (n : Fin 128), s2 (ix2 a n) = Cert.Spec.hot a.val (m2 (ix1 n)))
    (hacc : ∀ n : Fin 128, acc (ix2 n r) = Cert.Spec.hot r.val (mu (ix1 n)) * C (ix1 n)) :
    k0_pay1 x1 x2 s1 s2 acc (ix3 p q r) = Cert.Spec.g X1 X2 m1 m2 mu C b q r := by
  rw [payload_apply]
  unfold Cert.Spec.g
  refine Finset.sum_congr rfl fun n _ => ?_
  rw [hacc n]
  simp only [h1, h2, hs1, hs2]

/-! ## From blocks to the array -/

variable (m : (ℓ : Loc nD τ sig) → Buf (Elt Ideal) ℓ) (ρ : Dev nD → PrngReg)

theorem off3 : (![0, 0, 0] : Fin 3 → Nat) = fun _ => 0 := funext fun a => by fin_cases a <;> rfl
theorem off2 : (![0, 0] : Fin 2 → Nat) = fun _ => 0 := funext fun a => by fin_cases a <;> rfl

/-- The index maps over the forty points: the X1, X2 and result blocks of point t start at environment 100·t, and
    the three small arrays are staged whole. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- The specification of the arrays as the region finds them on core c. -/
abbrev GV (c : Dev nD) : S4000x128x11.Idx → EReal :=
  Cert.Spec.G (V m c main_arg0) (V m c main_arg1) (m ((c : Thread nD τ).loc main_arg2)) (m ((c : Thread nD τ).loc main_arg3))
    (m ((c : Thread nD τ).loc main_arg4)) (m ((c : Thread nD τ).loc main_arg5))

/-- Point t's block of X1 at (p, q, a) is X1 at environment 100·t + p. -/
theorem blockX1_apply (c : Dev nD) (t : Fin cfg0.N) (p : Fin 100) (q : Fin 128) (a : Fin 11) :
    iblk m c 0 t (ix3 p q a) = V m c main_arg0 (ix3 ⟨t.val * 100 + p.val, by have : t.val < 40 := t.isLt; omega⟩ q a) := by
  obtain ⟨e0, e1, e2, -⟩ := idx_facts t
  show V m c main_arg0 (((cfg0.win 0).blk t).view.emb (ix3 p q a)) = V m c main_arg0 _
  refine congrArg _ (funext fun d => Fin.ext ?_)
  match d with
  | ⟨0, _⟩ => show win0_0.index t (0 : Fin 3) * 100 + 1 * p.val = t.val * 100 + p.val; omega
  | ⟨1, _⟩ => show win0_0.index t (1 : Fin 3) * 128 + 1 * q.val = q.val; omega
  | ⟨2, _⟩ => show win0_0.index t (2 : Fin 3) * 11 + 1 * a.val = a.val; omega

/-- Point t's block of X2 at (p, q, a) is X2 at environment 100·t + p. -/
theorem blockX2_apply (c : Dev nD) (t : Fin cfg0.N) (p : Fin 100) (q : Fin 128) (a : Fin 11) :
    iblk m c 1 t (ix3 p q a) = V m c main_arg1 (ix3 ⟨t.val * 100 + p.val, by have : t.val < 40 := t.isLt; omega⟩ q a) := by
  obtain ⟨-, -, -, e0, e1, e2, -⟩ := idx_facts t
  show V m c main_arg1 (((cfg0.win 1).blk t).view.emb (ix3 p q a)) = V m c main_arg1 _
  refine congrArg _ (funext fun d => Fin.ext ?_)
  match d with
  | ⟨0, _⟩ => show win0_1.index t (0 : Fin 3) * 100 + 1 * p.val = t.val * 100 + p.val; omega
  | ⟨1, _⟩ => show win0_1.index t (1 : Fin 3) * 128 + 1 * q.val = q.val; omega
  | ⟨2, _⟩ => show win0_1.index t (2 : Fin 3) * 11 + 1 * a.val = a.val; omega

/-- The first selector is staged whole at every point. -/
theorem blockSel1_apply (c : Dev nD) (t : Fin cfg0.N) (a : Fin 11) (n : Fin 128) :
    iblk m c 2 t (ix2 a n) = V m c main_v8 (ix2 a n) := by
  obtain ⟨-, -, -, -, -, -, e0, e1, -⟩ := idx_facts t
  show V m c main_v8 (((cfg0.win 2).blk t).view.emb (ix2 a n)) = V m c main_v8 _
  refine congrArg _ (funext fun d => Fin.ext ?_)
  match d with
  | ⟨0, _⟩ => show win0_2.index t (0 : Fin 2) * 11 + 1 * a.val = a.val; omega
  | ⟨1, _⟩ => show win0_2.index t (1 : Fin 2) * 128 + 1 * n.val = n.val; omega

/-- The second selector is staged whole at every point. -/
theorem blockSel2_apply (c : Dev nD) (t : Fin cfg0.N) (a : Fin 11) (n : Fin 128) :
    iblk m c 3 t (ix2 a n) = V m c main_v14 (ix2 a n) := by
  obtain ⟨-, -, -, -, -, -, -, -, e0, e1, -⟩ := idx_facts t
  show V m c main_v14 (((cfg0.win 3).blk t).view.emb (ix2 a n)) = V m c main_v14 _
  refine congrArg _ (funext fun d => Fin.ext ?_)
  match d with
  | ⟨0, _⟩ => show win0_3.index t (0 : Fin 2) * 11 + 1 * a.val = a.val; omega
  | ⟨1, _⟩ => show win0_3.index t (1 : Fin 2) * 128 + 1 * n.val = n.val; omega

/-- The accumulation matrix is staged whole at every point. -/
theorem blockAcc_apply (c : Dev nD) (t : Fin cfg0.N) (n : Fin 128) (j : Fin 11) :
    iblk m c 4 t (ix2 n j) = V m c main_v23 (ix2 n j) := by
  obtain ⟨-, -, -, -, -, -, -, -, -, -, e0, e1, -⟩ := idx_facts t
  show V m c main_v23 (((cfg0.win 4).blk t).view.emb (ix2 n j)) = V m c main_v23 _
  refine congrArg _ (funext fun d => Fin.ext ?_)
  match d with
  | ⟨0, _⟩ => show win0_4.index t (0 : Fin 2) * 128 + 1 * n.val = n.val; omega
  | ⟨1, _⟩ => show win0_4.index t (1 : Fin 2) * 11 + 1 * j.val = j.val; omega

/-- Entry (p, q, r) of point t's result block sits at environment 100·t + p of the array. -/
theorem blockOut_emb (t : Fin cfg0.N) (p : Fin 100) (q : Fin 128) (r : Fin 11) :
    ((cfg0.win 5).blk t).view.emb (ix3 p q r) = ix3 ⟨t.val * 100 + p.val, by have : t.val < 40 := t.isLt; omega⟩ q r := by
  obtain ⟨-, -, -, -, -, -, -, -, -, -, -, -, e0, e1, e2⟩ := idx_facts t
  refine funext fun d => Fin.ext ?_
  match d with
  | ⟨0, _⟩ => show win0_5.index t (0 : Fin 3) * 100 + 1 * p.val = t.val * 100 + p.val; omega
  | ⟨1, _⟩ => show win0_5.index t (1 : Fin 3) * 128 + 1 * q.val = q.val; omega
  | ⟨2, _⟩ => show win0_5.index t (2 : Fin 3) * 11 + 1 * r.val = r.val; omega

/-- WHAT POINT t WRITES BACK is block t of the specification. -/
theorem flushed_eq (c : Dev nD) (t : Fin cfg0.N) :
    (dats m 0 c).flushed 5 t = ((cfg0.win 5).blk t).view.read (Elt Ideal) (GV m c) := by
  rw [Cert.KernelIdeal.Value.flushed5]
  unfold out0_5
  rw [View.canon_unit_zero off3]
  simp only [View.ld_unit_zero (S := S100x128x11) off3, View.ld_unit_zero (S := S11x128) off2, View.ld_unit_zero (S := S128x11) off2]
  funext y
  obtain ⟨p, q, r, rfl⟩ : ∃ (p : Fin 100) (q : Fin 128) (r : Fin 11), y = ix3 p q r := ⟨y 0, y 1, y 2, eq_ix3 y⟩
  show k0_pay1 (iblk m c 0 t) (iblk m c 1 t) (iblk m c 2 t) (iblk m c 3 t) (iblk m c 4 t) (ix3 p q r)
    = GV m c (((cfg0.win 5).blk t).view.emb (ix3 p q r))
  rw [blockOut_emb]
  exact payload_spec (iblk m c 0 t) (iblk m c 1 t) (iblk m c 2 t) (iblk m c 3 t) (iblk m c 4 t)
    (V m c main_arg0) (V m c main_arg1) (m ((c : Thread nD τ).loc main_arg2)) (m ((c : Thread nD τ).loc main_arg3))
    (m ((c : Thread nD τ).loc main_arg4)) (m ((c : Thread nD τ).loc main_arg5))
    ⟨t.val * 100 + p.val, by have : t.val < 40 := t.isLt; omega⟩ p q r
    (fun a => blockX1_apply m c t p q a) (fun a => blockX2_apply m c t p q a)
    (fun a n => (blockSel1_apply m c t a n).trans (HostWindows.sel1_apply m c a n))
    (fun a n => (blockSel2_apply m c t a n).trans (HostWindows.sel2_apply m c a n))
    (fun n => (blockAcc_apply m c t n r).trans (HostWindows.acc_apply m c n r))

/-- An index of the array is in point t's block iff each coordinate is in the block's range on its axis. -/
theorem mem_block (t : Fin cfg0.N) (i : S4000x128x11.Idx) :
    i ∈ ((cfg0.win 5).blk t).view.set ↔ ∀ a : Fin 3, win0_5.index t a * S100x128x11.size a ≤ (i a).val
      ∧ (i a).val < win0_5.index t a * S100x128x11.size a + S100x128x11.size a := by
  show i ∈ ((View.whole main_v24).slice (win0_5.rect t)).set ↔ _
  rw [View.set_slice_whole, Rect.mem_set_unit]
  exact Iff.rfl

/-- THE FORTY BLOCKS TILE THE ARRAY: environment e lies in the block of point e / 100. -/
theorem cover (i : S4000x128x11.Idx) :
    ∃ t : Fin cfg0.N, (cfg0.win 5).flush t = true ∧ i ∈ ((cfg0.win 5).blk t).view.set := by
  have hi0 : (i 0).val < 4000 := (i 0).isLt
  have hi1 : (i 1).val < 128 := (i 1).isLt
  have hi2 : (i 2).val < 11 := (i 2).isLt
  have hlt : (i 0).val / 100 < 40 := by omega
  obtain ⟨t, ht⟩ : ∃ t : Fin cfg0.N, t.val = (i 0).val / 100 := ⟨⟨(i 0).val / 100, hlt⟩, rfl⟩
  obtain ⟨-, -, -, -, -, -, -, -, -, -, -, -, e0, e1, e2⟩ := idx_facts t
  refine ⟨t, flush0_5 t, ?_⟩
  rw [mem_block]
  intro a
  match a with
  | ⟨0, _⟩ => show win0_5.index t (0 : Fin 3) * 100 ≤ (i 0).val ∧ (i 0).val < win0_5.index t (0 : Fin 3) * 100 + 100; omega
  | ⟨1, _⟩ => show win0_5.index t (1 : Fin 3) * 128 ≤ (i 1).val ∧ (i 1).val < win0_5.index t (1 : Fin 3) * 128 + 128; omega
  | ⟨2, _⟩ => show win0_5.index t (2 : Fin 3) * 11 ≤ (i 2).val ∧ (i 2).val < win0_5.index t (2 : Fin 3) * 11 + 11; omega

/-- THE ARRAY AFTER THE RUN is the specification of the six arguments as launched. -/
theorem final (c : Dev nD) :
    (dats m 0 c).arrAt 5 cfg0.N
      = Cert.Spec.G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  rw [(dats m 0 c).arrAt_eq_of_cover 5 (GV m c) (fun t _ => flushed_eq m c t) cover]
  show Cert.Spec.G (V m c main_arg0) (V m c main_arg1) _ _ _ _ = _
  rw [V_main_arg0, V_main_arg1]

/-! ## The run, read -/

/-- Every weakly fair execution ends with the result array at the specification and the arguments unchanged. -/
theorem run : θ_run defs (onTc (τ := τ) (main (F := Ideal))) ⟨m, fun _ => 0, ρ⟩ fun r => ∀ c : Dev nD,
      r.2.mem ((c : Thread nD τ).loc main_v24)
        = Cert.Spec.G (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.Value.run_blocks m ρ)

end Cert.KernelIdeal.Coupling

end
-- ==== Proof.RefValue.lean ====
/-
  The reference's result is the specification, for tables in range.

  The reference normalises each table (a negative word gets 11 added), gathers X1 and X2 along the last axis at the
  clamped entries, multiplies by C, and scatter-adds the 128 products of each (b, f) into the 11 components by mu,
  dropping an entry that lands outside. For tables in range the normalisation and the clamp do nothing, the
  gathered element is the one-hot sum of the specification (`Cert.Spec.sum_hot`), and the scatter's sum over the
  updates landing at (b, f, j) is the sum over the entries n with mu n = j.
-/
import proofs.«404499_j56624848830594_1_alg».proof.Proof.Gen.ReferenceIdeal.Read
import proofs.«404499_j56624848830594_1_alg».proof.Proof.Spec
import Idealize.ShloMosaic.Lib.ValueIdx
import Idealize.ShloMosaic.Lib.StableHlo.Predicate
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.TcCoe
open Idealize.ShloMosaic.ValueIdx

/-- The gather's dimension numbers: X[..., m] of a [4000, 128, 11] array at a [128, 1] column of start indices. -/
abbrev GD := gather_S4000x128x11_S128x1_S4000x128x128_01_2_n_n_2_1_40001281
/-- The scatter's dimension numbers: out.at[..., mu].add of [4000, 128, 128] updates into [4000, 128, 11]. -/
abbrev SD := scatter_S4000x128x11_S128x1_S4000x128x128_01_2_2_1

/-! ## The gather read at an index -/

/-- THE GATHER AT (b, f, n): the operand at (b, f, ·), the last coordinate the start index of entry n read signed and
    clamped into 0 … 10. -/
theorem gather_apply {α : Type} (x : S4000x128x11.Idx → α) (idx : IVec S128x1 32) (b : Fin 4000) (f : Fin 128) (n : Fin 128) :
    Host.gather GD x idx (ix3 b f n) = x (ix3 b f ⟨min (idx (ix2 n 0)).toInt.toNat 10, by omega⟩) := by
  unfold Host.gather
  congr 1
  funext a
  refine Fin.ext ?_
  match a with
  | ⟨0, _⟩ =>
    show GD.start (ix3 b f n) idx 0 + GD.batchCoord (ix3 b f n) 0 + GD.offCoord (ix3 b f n) 0 = b.val
    unfold GatherDims.start GatherDims.offCoord
    rw [dif_neg (by decide), GatherDims.batchCoord_eq_zero _ _ _ List.not_mem_nil, dif_pos (by decide), Nat.zero_add]
    rfl
  | ⟨1, _⟩ =>
    show GD.start (ix3 b f n) idx 1 + GD.batchCoord (ix3 b f n) 1 + GD.offCoord (ix3 b f n) 1 = f.val
    unfold GatherDims.start GatherDims.offCoord
    rw [dif_neg (by decide), GatherDims.batchCoord_eq_zero _ _ _ List.not_mem_nil, dif_pos (by decide), Nat.zero_add]
    rfl
  | ⟨2, _⟩ =>
    have hm : (2 : Fin 3) ∈ GD.startIndexMap := List.mem_singleton.mpr rfl
    have hsi : GD.siIdx (ix3 b f n) ⟨List.idxOf (2 : Fin 3) GD.startIndexMap, List.idxOf_lt_length_iff.2 hm⟩ = ix2 n 0 := by
      funext c; refine Fin.ext ?_
      match c with
      | ⟨0, _⟩ => rfl
      | ⟨1, _⟩ => rfl
    show GD.start (ix3 b f n) idx 2 + GD.batchCoord (ix3 b f n) 2 + GD.offCoord (ix3 b f n) 2 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos hm, hsi]
    rfl

/-! ## Where an update lands -/

/-- An update lands at the operand index whose every coordinate is the window's start plus the window coordinate. -/
theorem resultIdx_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  constructor
  · intro hh
    by_cases h : ∀ a, 0 ≤ d.start j idx a + d.window j a ∧ d.start j idx a + d.window j a < s.size a
    · rw [dif_pos h] at hh
      have h1 := Option.some.inj hh
      intro a
      have ha := h a
      have h2 := congrArg Fin.val (congrFun h1 a)
      simp only at h2
      omega
    · rw [dif_neg h] at hh
      exact absurd hh (by simp)
  · intro hh
    have h : ∀ a, 0 ≤ d.start j idx a + d.window j a ∧ d.start j idx a + d.window j a < s.size a := by
      intro a; have := hh a; have := (i a).isLt; omega
    rw [dif_pos h]
    congr 1; funext a; apply Fin.ext; simp only; have := hh a; omega

/-- On the two window axes the landing coordinate is the update's own coordinate (the window starts at 0 there). -/
theorem SD_key0 (idx : IVec S128x1 32) (u : S4000x128x128.Idx) : SD.start u idx 0 + (SD.window u 0 : ℤ) = ((u 0).val : ℤ) := by
  unfold ScatterDims.start ScatterDims.window
  rw [dif_neg (by decide), dif_pos (by decide), Int.zero_add]
  rfl
theorem SD_key1 (idx : IVec S128x1 32) (u : S4000x128x128.Idx) : SD.start u idx 1 + (SD.window u 1 : ℤ) = ((u 1).val : ℤ) := by
  unfold ScatterDims.start ScatterDims.window
  rw [dif_neg (by decide), dif_pos (by decide), Int.zero_add]
  rfl
/-- On the scattered axis the landing coordinate is entry n's scatter index read signed (the window coordinate is 0). -/
theorem SD_key2 (idx : IVec S128x1 32) (u : S4000x128x128.Idx) : SD.start u idx 2 + (SD.window u 2 : ℤ) = (idx (ix2 (u 2) 0)).toInt := by
  have hm : (2 : Fin 3) ∈ SD.scatterDimsToOperandDims := List.mem_singleton.mpr rfl
  have hsi : SD.siIdx u ⟨List.idxOf (2 : Fin 3) SD.scatterDimsToOperandDims, List.idxOf_lt_length_iff.2 hm⟩ = ix2 (u 2) 0 := by
    funext c; refine Fin.ext ?_
    match c with
    | ⟨0, _⟩ => rfl
    | ⟨1, _⟩ => rfl
  unfold ScatterDims.start ScatterDims.window
  rw [dif_pos hm, dif_neg (by decide), hsi]
  simp

/-- THE SCATTER'S LANDING INDEX: update (b', f', n) lands at (b, f, j) exactly when b' = b, f' = f and j is entry n's
    scatter index read signed. -/
theorem resultIdx_iff (idx : IVec S128x1 32) (b' : Fin 4000) (f' n : Fin 128) (b : Fin 4000) (f : Fin 128) (j : Fin 11) :
    SD.resultIdx? (ix3 b' f' n) idx = some (ix3 b f j) ↔ b' = b ∧ f' = f ∧ (j.val : ℤ) = (idx (ix2 n 0)).toInt := by
  rw [resultIdx_eq_some_iff]
  constructor
  · intro hh
    have e0 := hh 0; have e1 := hh 1; have e2 := hh 2
    rw [SD_key0] at e0; rw [SD_key1] at e1; rw [SD_key2] at e2
    exact ⟨Fin.ext (by exact_mod_cast e0), Fin.ext (by exact_mod_cast e1), e2.symm⟩
  · rintro ⟨rfl, rfl, e2⟩ a
    match a with
    | ⟨0, _⟩ => exact SD_key0 idx (ix3 b' f' n)
    | ⟨1, _⟩ => exact SD_key1 idx (ix3 b' f' n)
    | ⟨2, _⟩ => exact (SD_key2 idx (ix3 b' f' n)).trans e2.symm

/-- THE SCATTER'S SUM RE-INDEXED: the updates landing at (b, f, j) are the (b, f, n) with entry n's scatter index j. -/
theorem scatter_sum (idx : IVec S128x1 32) (upd : S4000x128x128.Idx → EReal) (b : Fin 4000) (f : Fin 128) (j : Fin 11)
    [DecidablePred fun u : S4000x128x128.Idx => SD.resultIdx? u idx = some (ix3 b f j)] :
    ∑ u ∈ Finset.univ.filter (fun u => SD.resultIdx? u idx = some (ix3 b f j)), upd u
      = ∑ n : Fin 128, if (j.val : ℤ) = (idx (ix2 n 0)).toInt then upd (ix3 b f n) else 0 := by
  rw [← Finset.sum_filter]
  symm
  refine Finset.sum_bij (fun n _ => ix3 b f n) ?_ ?_ ?_ ?_
  · intro n hn
    rw [Finset.mem_filter] at hn ⊢
    exact ⟨Finset.mem_univ _, (resultIdx_iff idx b f n b f j).2 ⟨rfl, rfl, hn.2⟩⟩
  · intro n1 _ n2 _ heq
    exact congrFun heq 2
  · intro u hu
    obtain ⟨b', f', n, rfl⟩ : ∃ b' f' n, u = ix3 b' f' n := ⟨u 0, u 1, u 2, eq_ix3 u⟩
    rw [Finset.mem_filter, resultIdx_iff] at hu
    obtain ⟨_, rfl, rfl, e2⟩ := hu
    exact ⟨n, Finset.mem_filter.2 ⟨Finset.mem_univ _, e2⟩, rfl⟩
  · intro n _; rfl

/-! ## The tables in range: the normalisation does nothing -/

/-- A word that is not negative is not below zero, so the select keeps it. -/
theorem norm_eq (w a : BitVec 32) (h0 : 0 ≤ w.toInt) : Scalar.select (IntOp.cmpi .slt w 0#32) a w = w := by
  have hb : IntOp.cmpi .slt w 0#32 = 0#1 := by
    show BitVec.ofBool (w.slt 0#32) = 0#1
    have : w.slt 0#32 = false := by
      rw [BitVec.slt, decide_eq_false_iff_not]
      have : (0#32 : BitVec 32).toInt = 0 := by decide
      omega
    rw [this]; rfl
  rw [hb, select_zero]

/-- The normalised table laid as a [128, 1] column reads the table itself at entry n. -/
theorem v5_apply (x2 : IVec S128 32) (n : Fin 128) (h0 : 0 ≤ (x2 (ix1 n)).toInt) :
    val_main_v5 (F := Ideal) x2 (ix2 n 0) = x2 (ix1 n) := by
  rw [val_main_v5_apply]
  have : idx_main_v5 (ix2 n (0 : Fin 1)) = ix1 n := by
    funext a; match a with | ⟨0, _⟩ => rfl
  rw [this, val_main_v4_apply, val_main_v1_apply, val_main_v0_apply, val_main_c_apply]
  exact norm_eq _ _ h0

/-- The same for the second table. -/
theorem v12_apply (x3 : IVec S128 32) (n : Fin 128) (h0 : 0 ≤ (x3 (ix1 n)).toInt) :
    val_main_v12 (F := Ideal) x3 (ix2 n 0) = x3 (ix1 n) := by
  rw [val_main_v12_apply]
  have : idx_main_v12 (ix2 n (0 : Fin 1)) = ix1 n := by
    funext a; match a with | ⟨0, _⟩ => rfl
  rw [this, val_main_v11_apply, val_main_v8_apply, val_main_v7_apply, val_main_c_1_apply]
  exact norm_eq _ _ h0

/-- The same for the scatter's table, which is only known not negative. -/
theorem v24_apply (x4 : IVec S128 32) (n : Fin 128) (h0 : 0 ≤ (x4 (ix1 n)).toInt) :
    val_main_v24 (F := Ideal) x4 (ix2 n 0) = x4 (ix1 n) := by
  rw [val_main_v24_apply]
  have : idx_main_v24 (ix2 n (0 : Fin 1)) = ix1 n := by
    funext a; match a with | ⟨0, _⟩ => rfl
  rw [this, val_main_v23_apply, val_main_v20_apply, val_main_v19_apply, val_main_c_3_apply]
  exact norm_eq _ _ h0

/-- C laid along the last axis of the [4000, 128, 128] products reads C at entry n. -/
theorem v16_apply (x5 : FVec Ideal S128 .f32) (b : Fin 4000) (f n : Fin 128) :
    val_main_v16 (F := Ideal) x5 (ix3 b f n) = x5 (ix1 n) := by
  rw [val_main_v16_apply, val_main_v15_apply]
  congr 1
  funext a; match a with | ⟨0, _⟩ => rfl

/-! ## The gathered element is the specification's one-hot sum -/

/-- For a start index in 0 … 10 the clamp does nothing, and the element the gather reads is the weighted sum over the
    eleven components with the one-hot weight of the table word. -/
theorem gather_hot (x : FVec Ideal S4000x128x11 .f32) (idx : IVec S128x1 32) (w : BitVec 32) (b : Fin 4000) (f n : Fin 128)
    (hw : idx (ix2 n 0) = w) (h0 : 0 ≤ w.toInt) (h1 : w.toInt < 11) :
    Host.gather GD x idx (ix3 b f n) = ∑ a : Fin 11, x (ix3 b f a) * Cert.Spec.hot a.val w := by
  rw [Cert.Spec.sum_hot (fun a => x (ix3 b f a)) w h0 h1, gather_apply]
  have : (⟨min (idx (ix2 n 0)).toInt.toNat 10, by omega⟩ : Fin 11) = ⟨w.toInt.toNat, by omega⟩ :=
    Fin.ext (by show min (idx (ix2 n 0)).toInt.toNat 10 = w.toInt.toNat; rw [hw]; omega)
  rw [this]

/-! ## The reference is the specification -/
/-- THE REFERENCE IS THE SPECIFICATION: for tables in range, the reference's last stage is `Cert.Spec.G` of the six
    argument arrays. -/
theorem val_eq_G (x0 x1 : FVec Ideal S4000x128x11 .f32) (x2 x3 x4 : IVec S128 32) (x5 : FVec Ideal S128 .f32)
    (h : Cert.Spec.InRange x2 x3 x4) :
    val_main_v25 (F := Ideal) x0 x1 x2 x3 x4 x5 = Cert.Spec.G x0 x1 x2 x3 x4 x5 := by
  obtain ⟨h2, h3, h4⟩ := h
  funext i
  obtain ⟨b, f, j, rfl⟩ : ∃ b f j, i = ix3 b f j := ⟨i 0, i 1, i 2, eq_ix3 i⟩
  show Ideal.hostScatterAdd SD (val_main_v18 (F := Ideal)) (val_main_v24 (F := Ideal) x4)
      (val_main_v17 (F := Ideal) x0 x1 x2 x3 x5) (ix3 b f j) = Cert.Spec.g x0 x1 x2 x3 x4 x5 b f j
  unfold Ideal.hostScatterAdd
  rw [val_main_v18_apply, val_main_cst_apply]
  show Ideal.ofBits .f32 0x00000000#32 + _ = _
  rw [Ideal.ofBits_zero_f32, zero_add, scatter_sum]
  unfold Cert.Spec.g
  refine Finset.sum_congr rfl (fun n _ => ?_)
  rw [v24_apply x4 n (h4 n), val_main_v17_apply, val_main_v14_apply, v16_apply]
  show (if (j.val : ℤ) = (x4 (ix1 n)).toInt then
      (Host.gather GD x0 (val_main_v5 (F := Ideal) x2) (ix3 b f n) * Host.gather GD x1 (val_main_v12 (F := Ideal) x3) (ix3 b f n))
        * x5 (ix1 n) else 0) = _
  rw [gather_hot x0 _ _ b f n (v5_apply x2 n (h2 n).1) (h2 n).1 (h2 n).2,
    gather_hot x1 _ _ b f n (v12_apply x3 n (h3 n).1) (h3 n).1 (h3 n).2,
    Cert.Spec.hot_eq_of_nonneg j.val (by have := j.isLt; omega) _ (h4 n)]
  have hnn := h4 n
  by_cases hj : (j.val : ℤ) = (x4 (ix1 n)).toInt
  · rw [if_pos hj, if_pos (by omega), one_mul]
  · rw [if_neg hj, if_neg (by omega), zero_mul, mul_zero]

end Cert.ReferenceIdeal.RefValue

end
-- ==== Proof.lean ====
/-
  The Clebsch–Gordan coupling kernel against its jnp reference, over the extended reals.

  Both programs compute, for every environment b, channel f and output component j,
      out[b, f, j] = Σ_n X1[b, f, m1 n] · X2[b, f, m2 n] · C n   over the entries n with mu n = j.
  The kernel selects with 0/1 matrices and three contractions; the reference gathers and scatter-adds. For tables
  that index inside their arrays (the precondition) both are the one function `Cert.Spec.G` of the six arguments:
  the kernel's run ends at it for every input (KernelValue), the reference's last stage is it for tables in range
  (RefValue), and the precondition puts the tables in range (PreRanges). A product with the weight 0 is 0 and with
  the weight 1 is the other factor on every extended real, so no finiteness is used. The three frames are the
  generated frame runs (the reference's is its run with the result dropped), and the idealization rewrote nothing.
-/
import proofs.«404499_j56624848830594_1_alg».proof.Defs
import proofs.«404499_j56624848830594_1_alg».proof.Proof.Gen.Kernel
import proofs.«404499_j56624848830594_1_alg».proof.Proof.Gen.Kernel.Skeleton
import proofs.«404499_j56624848830594_1_alg».proof.Proof.Gen.Kernel.Launch
import proofs.«404499_j56624848830594_1_alg».proof.Proof.Gen.Kernel.Points
import proofs.«404499_j56624848830594_1_alg».proof.Proof.Gen.Kernel.Frame
import proofs.«404499_j56624848830594_1_alg».proof.Proof.Gen.KernelIdeal
import proofs.«404499_j56624848830594_1_alg».proof.Proof.Gen.KernelIdeal.Skeleton
import proofs.«404499_j56624848830594_1_alg».proof.Proof.Gen.KernelIdeal.Launch
import proofs.«404499_j56624848830594_1_alg».proof.Proof.Gen.KernelIdeal.Points
import proofs.«404499_j56624848830594_1_alg».proof.Proof.Gen.KernelIdeal.Frame
import proofs.«404499_j56624848830594_1_alg».proof.Proof.Gen.ReferenceIdeal
import proofs.«404499_j56624848830594_1_alg».proof.Proof.Gen.Pre_finite_inputs
import proofs.«404499_j56624848830594_1_alg».proof.Proof.Gen.KernelIdeal.Value
import proofs.«404499_j56624848830594_1_alg».proof.Proof.Gen.ReferenceIdeal.Run
import proofs.«404499_j56624848830594_1_alg».proof.Proof.Gen.ReferenceIdeal.Read
import proofs.«404499_j56624848830594_1_alg».proof.Proof.Spec
import proofs.«404499_j56624848830594_1_alg».proof.Proof.PreRanges
import proofs.«404499_j56624848830594_1_alg».proof.Proof.HostWindows
import proofs.«404499_j56624848830594_1_alg».proof.Proof.KernelValue
import proofs.«404499_j56624848830594_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments: its generated frame. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the six arguments and whose tables index in range, both programs end with the
    result array at the specification of those arguments. -/
theorem algebraic : Cert.algebraic_KernelIdeal_ReferenceIdeal := by
  intro m ρ m' ρ' hpre hagree
  refine ⟨_, Cert.KernelIdeal.Coupling.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, (hagree c).1, (hagree c).2.1, (hagree c).2.2.1, (hagree c).2.2.2.1,
    (hagree c).2.2.2.2.1, (hagree c).2.2.2.2.2]
  exact Cert.ReferenceIdeal.RefValue.val_eq_G _ _ _ _ _ _
    (Cert.Pre_finite_inputs.Ranges.inRange_of_pre _ _ _ _ _ _ (hpre c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
